-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128x768 : Shape := ⟨3, ![4, 128, 768]⟩
abbrev S1536x768 : Shape := ⟨2, ![1536, 768]⟩
abbrev S768 : Shape := ⟨1, ![768]⟩
abbrev S_ : Shape := ⟨0, ![]⟩

class Facts : Prop where
  bcast_S_S4x128x768 : S_.BroadcastsInDim S4x128x768 (![] : Fin 0 → Fin S4x128x768.rank)
  reducesTo_S4x128x768_S_d0_1_2 : S4x128x768.ReducesTo [0, 1, 2] S_
  h_S_ : 0 < S_.numel
  bcast_S_S1536x768 : S_.BroadcastsInDim S1536x768 (![] : Fin 0 → Fin S1536x768.rank)
  reducesTo_S1536x768_S_d0_1 : S1536x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  main_v18

def fn {F : FTy → Type} [FloatOps F] (main_arg0 : FVec F S4x128x768 .f32) (main_arg1 : FVec F S4x128x768 .f32) (main_arg2 : FVec F S1536x768 .f32) (main_arg3 : FVec F S768 .f32) : IVec S_ 1 :=
  let main_v0 : FVec F S4x128x768 .f32 := Host.absf main_arg0
  let main_cst : FVec F S_ .f32 := constant S_ .f32 0x7F800000#32
  let main_v1 : FVec F S4x128x768 .f32 := broadcastInDim S4x128x768 ![] bcast_S_S4x128x768 main_cst
  let main_v2 : IVec S4x128x768 1 := cmpf .olt main_v0 main_v1
  let main_c : IVec S_ 1 := constantI S_ 1 1#1
  let main_v3 : IVec S_ 1 := (fun x v => Host.reduce IntOp.andi x v reducesTo_S4x128x768_S_d0_1_2 h_S_) main_v2 main_c
  let main_v4 : FVec F S4x128x768 .f32 := Host.absf main_arg1
  let main_cst_0 : FVec F S_ .f32 := constant S_ .f32 0x7F800000#32
  let main_v5 : FVec F S4x128x768 .f32 := broadcastInDim S4x128x768 ![] bcast_S_S4x128x768 main_cst_0
  let main_v6 : IVec S4x128x768 1 := cmpf .olt main_v4 main_v5
  let main_c_1 : IVec S_ 1 := constantI S_ 1 1#1
  let main_v7 : IVec S_ 1 := (fun x v => Host.reduce IntOp.andi x v reducesTo_S4x128x768_S_d0_1_2 h_S_) main_v6 main_c_1
  let main_v8 : IVec S_ 1 := andi main_v3 main_v7
  let main_v9 : FVec F S1536x768 .f32 := Host.absf main_arg2
  let main_cst_2 : FVec F S_ .f32 := constant S_ .f32 0x7F800000#32
  let main_v10 : FVec F S1536x768 .f32 := broadcastInDim S1536x768 ![] bcast_S_S1536x768 main_cst_2
  let main_v11 : IVec S1536x768 1 := cmpf .olt main_v9 main_v10
  let main_c_3 : IVec S_ 1 := constantI S_ 1 1#1
  let main_v12 : IVec S_ 1 := (fun x v => Host.reduce IntOp.andi x v reducesTo_S1536x768_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_v13 main_v16
-- ==== Kernel.lean ====
abbrev S4x128x768 : Shape := ⟨3, ![4, 128, 768]⟩
abbrev S1536x768 : Shape := ⟨2, ![1536, 768]⟩
abbrev S768 : Shape := ⟨1, ![768]⟩
abbrev S4x128x128x768 : Shape := ⟨4, ![4, 128, 128, 768]⟩
abbrev S1x128x768 : Shape := ⟨3, ![1, 128, 768]⟩
abbrev S1536x256 : Shape := ⟨2, ![1536, 256]⟩
abbrev S256 : Shape := ⟨1, ![256]⟩
abbrev S1x128x128x256 : Shape := ⟨4, ![1, 128, 128, 256]⟩
abbrev S128x768 : Shape := ⟨2, ![128, 768]⟩
abbrev S768x256 : Shape := ⟨2, ![768, 256]⟩
abbrev S128x256 : Shape := ⟨2, ![128, 256]⟩
abbrev S128x1x256 : Shape := ⟨3, ![128, 1, 256]⟩
abbrev S1x128x256 : Shape := ⟨3, ![1, 128, 256]⟩
abbrev S128x128x256 : Shape := ⟨3, ![128, 128, 256]⟩
abbrev S1x1x256 : Shape := ⟨3, ![1, 1, 256]⟩

abbrev nBuf : Space → Nat
  | .hbm => 5
  | .vmem => 10
  | .smem => 0
  | _ => 0

abbrev bufTy : (tb : Table) → Fin (tcTables nBuf tb) → BufTy
  | .hbm, ⟨0, _⟩ => ⟨S4x128x768, .f32⟩
  | .hbm, ⟨1, _⟩ => ⟨S4x128x768, .f32⟩
  | .hbm, ⟨2, _⟩ => ⟨S1536x768, .f32⟩
  | .hbm, ⟨3, _⟩ => ⟨S768, .f32⟩
  | .hbm, ⟨4, _⟩ => ⟨S4x128x128x768, .f32⟩
  | .local _ .vmem, ⟨0, _⟩ => ⟨S1x128x768, .f32⟩
  | .local _ .vmem, ⟨1, _⟩ => ⟨S1x128x768, .f32⟩
  | .local _ .vmem, ⟨2, _⟩ => ⟨S1x128x768, .f32⟩
  | .local _ .vmem, ⟨3, _⟩ => ⟨S1x128x768, .f32⟩
  | .local _ .vmem, ⟨4, _⟩ => ⟨S1536x256, .f32⟩
  | .local _ .vmem, ⟨5, _⟩ => ⟨S1536x256, .f32⟩
  | .local _ .vmem, ⟨6, _⟩ => ⟨S256, .f32⟩
  | .local _ .vmem, ⟨7, _⟩ => ⟨S256, .f32⟩
  | .local _ .vmem, ⟨8, _⟩ => ⟨S1x128x128x256, .f32⟩
  | .local _ .vmem, ⟨9, _⟩ => ⟨S1x128x128x256, .f32⟩
  | _, _ => ⟨S4x128x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x128x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1536x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x128x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x128x768_S1x128x768_0_0_0 : ∀ a, (![0, 0, 0] : Fin 3 → Nat) a + S1x128x768.size a ≤ S1x128x768.size a
  h_S1x128x768 : 0 < S1x128x768.numel
  shapeCasts_S1x128x768_S128x768 : S1x128x768.ShapeCasts S128x768
  bitsLt_bf16_f32 : FTy.bits .bf16 < FTy.bits .f32
  inb_S1536x256_S768x256_0_0 : ∀ a, (![0, 0] : Fin 2 → Nat) a + S768x256.size a ≤ S1536x256.size a
  h_S768x256 : 0 < S768x256.numel
  inb_S1536x256_S768x256_768_0 : ∀ a, (![768, 0] : Fin 2 → Nat) a + S768x256.size a ≤ S1536x256.size a
  inb_S256_S256_0 : ∀ a, (![0] : Fin 1 → Nat) a + S256.size a ≤ S256.size a
  h_S256 : 0 < S256.numel
  shapeCasts_S128x256_S128x1x256 : S128x256.ShapeCasts S128x1x256
  shapeCasts_S128x256_S1x128x256 : S128x256.ShapeCasts S1x128x256
  broadcasts_S128x1x256_S128x128x256 : S128x1x256.Broadcasts S128x128x256
  broadcasts_S1x128x256_S128x128x256 : S1x128x256.Broadcasts S128x128x256
  shapeCasts_S256_S1x1x256 : S256.ShapeCasts S1x1x256
  broadcasts_S1x1x256_S128x128x256 : S1x1x256.Broadcasts S128x128x256
  inb_S1x128x128x256_S1x128x128x256_0_0_0_0 : ∀ a, (![0, 0, 0, 0] : Fin 4 → Nat) a + S1x128x128x256.size a ≤ S1x128x128x256.size a
  h_S1x128x128x256 : 0 < S1x128x128x256.numel
  shapeCasts_S1x128x128x256_S128x128x256 : S1x128x128x256.ShapeCasts S128x128x256
  shapeCasts_S128x128x256_S1x128x128x256 : S128x128x256.ShapeCasts S1x128x128x256
  dot_S128x768_S768x256_S128x256_1_0_0_1_n_n_wf : DotDims.WF S128x768 S768x256 S128x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x768.size a ≤ S4x128x768.size a
  hwx0_0 : ∀ i : grid0.Coords, EltTy.bits .f32 = 32 ∨ (Rect.block (s := S4x128x768) S1x128x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x768.size a ≤ S4x128x768.size a
  hwx0_1 : ∀ i : grid0.Coords, EltTy.bits .f32 = 32 ∨ (Rect.block (s := S4x128x768) S1x128x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1536x256.size a ≤ S1536x768.size a
  hwx0_2 : ∀ i : grid0.Coords, EltTy.bits .f32 = 32 ∨ (Rect.block (s := S1536x768) S1536x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S768.size a
  hwx0_3 : ∀ i : grid0.Coords, EltTy.bits .f32 = 32 ∨ (Rect.block (s := S768) S256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x128x256.size a ≤ S4x128x128x768.size a
  hwx0_4 : ∀ i : grid0.Coords, EltTy.bits .f32 = 32 ∨ (Rect.block (s := S4x128x128x768) S1x128x128x256.size (cc0_transform_4 i) (hinb0_4 i)).WholeWords (EltTy.packing .f32)

variable [Facts₀]

def dot_S128x768_S768x256_S128x256_1_0_0_1_n_n : DotDims S128x768 S768x256 S128x256 where
  lhsContracting := [1]
  rhsContracting := [0]
  lhsNonContracting := [0]
  rhsNonContracting := [1]
  lhsBatch := []
  rhsBatch := []
  wf := dot_S128x768_S768x256_S128x256_1_0_0_1_n_n_wf

abbrev win0_0 : Pipeline.Window sig grid0 :=
  Pipeline.Window.ofSpec (Memref.whole main_arg0) S1x128x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1536x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x128x128x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x128x768 : Shape := ⟨3, ![4, 128, 768]⟩
abbrev S1536x768 : Shape := ⟨2, ![1536, 768]⟩
abbrev S768 : Shape := ⟨1, ![768]⟩
abbrev S768x768 : Shape := ⟨2, ![768, 768]⟩
abbrev S4x128x1x768 : Shape := ⟨4, ![4, 128, 1, 768]⟩
abbrev S4x1x128x768 : Shape := ⟨4, ![4, 1, 128, 768]⟩
abbrev S4x128x128x768 : Shape := ⟨4, ![4, 128, 128, 768]⟩
abbrev S1x1x1x768 : Shape := ⟨4, ![1, 1, 1, 768]⟩

abbrev nBuf : Space → Nat
  | .hbm => 16
  | .vmem => 0
  | .smem => 0
  | _ => 0

abbrev bufTy : (tb : Table) → Fin (tcTables nBuf tb) → BufTy
  | .hbm, ⟨0, _⟩ => ⟨S4x128x768, .f32⟩
  | .hbm, ⟨1, _⟩ => ⟨S4x128x768, .f32⟩
  | .hbm, ⟨2, _⟩ => ⟨S1536x768, .f32⟩
  | .hbm, ⟨3, _⟩ => ⟨S768, .f32⟩
  | .hbm, ⟨4, _⟩ => ⟨S768x768, .f32⟩
  | .hbm, ⟨5, _⟩ => ⟨S768x768, .f32⟩
  | .hbm, ⟨6, _⟩ => ⟨S4x128x768, .f32⟩
  | .hbm, ⟨7, _⟩ => ⟨S4x128x768, .f32⟩
  | .hbm, ⟨8, _⟩ => ⟨S4x128x1x768, .f32⟩
  | .hbm, ⟨9, _⟩ => ⟨S4x1x128x768, .f32⟩
  | .hbm, ⟨10, _⟩ => ⟨S4x128x128x768, .f32⟩
  | .hbm, ⟨11, _⟩ => ⟨S4x128x128x768, .f32⟩
  | .hbm, ⟨12, _⟩ => ⟨S4x128x128x768, .f32⟩
  | .hbm, ⟨13, _⟩ => ⟨S1x1x1x768, .f32⟩
  | .hbm, ⟨14, _⟩ => ⟨S4x128x128x768, .f32⟩
  | .hbm, ⟨15, _⟩ => ⟨S4x128x128x768, .f32⟩
  | _, _ => ⟨S4x128x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]

class Facts₀ : Prop where
  slices_S1536x768_S768x768_0_0 : S1536x768.Slices ![0, 0] S768x768
  slices_S1536x768_S768x768_768_0 : S1536x768.Slices ![768, 0] S768x768
  bcast_S4x128x768_S4x128x1x768_0_1_3 : S4x128x768.BroadcastsInDim S4x128x1x768 (![0, 1, 3] : Fin 3 → Fin S4x128x1x768.rank)
  bcast_S4x128x768_S4x1x128x768_0_2_3 : S4x128x768.BroadcastsInDim S4x1x128x768 (![0, 2, 3] : Fin 3 → Fin S4x1x128x768.rank)
  bcast_S4x128x1x768_S4x128x128x768_0_1_2_3 : S4x128x1x768.BroadcastsInDim S4x128x128x768 (![0, 1, 2, 3] : Fin 4 → Fin S4x128x128x768.rank)
  bcast_S4x1x128x768_S4x128x128x768_0_1_2_3 : S4x1x128x768.BroadcastsInDim S4x128x128x768 (![0, 1, 2, 3] : Fin 4 → Fin S4x128x128x768.rank)
  bcast_S768_S1x1x1x768_3 : S768.BroadcastsInDim S1x1x1x768 (![3] : Fin 1 → Fin S1x1x1x768.rank)
  bcast_S1x1x1x768_S4x128x128x768_0_1_2_3 : S1x1x1x768.BroadcastsInDim S4x128x128x768 (![0, 1, 2, 3] : Fin 4 → Fin S4x128x128x768.rank)
  dot_S4x128x768_S768x768_S4x128x768_2_0_01_1_n_n_wf : DotDims.WF S4x128x768 S768x768 S4x128x768 [2] [0] [0, 1] [1] [] []

variable [Facts₀]

def dot_S4x128x768_S768x768_S4x128x768_2_0_01_1_n_n : DotDims S4x128x768 S768x768 S4x128x768 where
  lhsContracting := [2]
  rhsContracting := [0]
  lhsNonContracting := [0, 1]
  rhsNonContracting := [1]
  lhsBatch := []
  rhsBatch := []
  wf := dot_S4x128x768_S768x768_S4x128x768_2_0_01_1_n_n_wf

class Facts : Prop extends Facts₀ where

variable [Facts]
-- ==== Proof.PairProjection.lean ====
/-
  The function both programs compute, on the extended reals.

  Inputs: two batches of rows `x₁, x₂ : [4, 128, 768]`, a weight matrix `W : [1536, 768]` whose upper half
  (rows 0 … 767) multiplies `x₁` and whose lower half (rows 768 … 1535) multiplies `x₂`, and a bias
  `β : [768]`. The result at `(b, i, j, o)` pairs row `i` of the first batch with row `j` of the second:

      (Σ_d x₁[b,i,d] · W[d,o]  +  Σ_d x₂[b,j,d] · W[768+d,o])  +  β[o].

  The grouping of the two additions is part of the definition: both programs add the two projections first
  and the bias last, so no law of the extended reals beyond equality of the summands is ever needed.
-/
import Idealize.ShloMosaic.PureOps.Ideal
import Idealize.ShloMosaic.Lib.ValueIdx

noncomputable section

open scoped BigOperators

namespace Cert.PairProjection

open Idealize.ShloMosaic Idealize.ShloMosaic.ValueIdx

/-- Row `d` of the weight matrix's upper half. -/
abbrev upper (d : Fin 768) : Fin 1536 := ⟨d.val, by have := d.isLt; omega⟩

/-- Row `d` of the weight matrix's lower half: row `768 + d` of the matrix. -/
abbrev lower (d : Fin 768) : Fin 1536 := ⟨768 + d.val, by have := d.isLt; omega⟩

/-- The projection of row `(b, i)` of a batch through one half of the weight matrix, at output column `o`:
    `Σ_d x[b,i,d] · W[half d, o]`. -/
def proj (half : Fin 768 → Fin 1536) (x : (⟨3, ![4, 128, 768]⟩ : Shape).Idx → EReal)
    (W : (⟨2, ![1536, 768]⟩ : Shape).Idx → EReal) (b : Fin 4) (i : Fin 128) (o : Fin 768) : EReal :=
  ∑ d : Fin 768, x (ix3 b i d) * W (ix2 (half d) o)

/-- The result at coordinates `(b, i, j, o)`: the two projections added, then the bias. -/
def at4 (x₁ x₂ : (⟨3, ![4, 128, 768]⟩ : Shape).Idx → EReal) (W : (⟨2, ![1536, 768]⟩ : Shape).Idx → EReal)
    (β : (⟨1, ![768]⟩ : Shape).Idx → EReal) (b : Fin 4) (i j : Fin 128) (o : Fin 768) : EReal :=
  (proj upper x₁ W b i o + proj lower x₂ W b j o) + β (ix1 o)

/-- The whole result array `[4, 128, 128, 768]`, index by index. -/
def result (x₁ x₂ : (⟨3, ![4, 128, 768]⟩ : Shape).Idx → EReal) (W : (⟨2, ![1536, 768]⟩ : Shape).Idx → EReal)
    (β : (⟨1, ![768]⟩ : Shape).Idx → EReal) : (⟨4, ![4, 128, 128, 768]⟩ : Shape).Idx → EReal :=
  fun k => at4 x₁ x₂ W β (k 0) (k 1) (k 2) (k 3)

theorem result_ix4 (x₁ x₂ : (⟨3, ![4, 128, 768]⟩ : Shape).Idx → EReal) (W : (⟨2, ![1536, 768]⟩ : Shape).Idx → EReal)
    (β : (⟨1, ![768]⟩ : Shape).Idx → EReal) (b : Fin 4) (i j : Fin 128) (o : Fin 768) :
    result x₁ x₂ W β (ix4 b i j o) = at4 x₁ x₂ W β b i j o := rfl

end Cert.PairProjection

end
-- ==== Proof.ReferenceValue.lean ====
/-
  The reference, stage by stage, is the pair projection.

  The reference slices the weight matrix into its upper and lower halves, contracts each batch with its half
  over the feature axis (one `dot_general` each, contracting axis 2 of the batch with axis 0 of the half),
  broadcasts the first product along a new axis 2 and the second along a new axis 1, adds them, and adds the
  bias broadcast along the first three axes. Read at an index `(b, i, j, o)` each broadcast drops the axis it
  created, each contraction is the sum over the feature index `d` of a batch entry times a weight entry, and
  the slices read rows `d` and `768 + d` of the matrix: that is `PairProjection.result` term for term.
-/
import proofs.«144224_j15951508537718_1_alg».proof.Proof.Gen.ReferenceIdeal.Read
import proofs.«144224_j15951508537718_1_alg».proof.Proof.PairProjection

noncomputable section

open scoped BigOperators

namespace Cert.ReferenceIdeal.RefValue

open Cert.ReferenceIdeal Cert.ReferenceIdeal.Read Idealize.ShloMosaic Idealize.ShloMosaic.ValueIdx Cert.PairProjection

/-- Where the first contraction reads the batch at result index `k` and feature `d`: row `(k 0, k 1)`. -/
theorem batch_first (k : S4x128x128x768.Idx) (d : Fin 768) :
    lidx_main_v2 (idx_main_v4 (idx_main_v6 k)) d = ix3 (k 0) (k 1) d :=
  funext fun a => match a with | ⟨0, _⟩ => rfl | ⟨1, _⟩ => rfl | ⟨2, _⟩ => rfl

/-- Where it reads the weight matrix: row `d` of the upper half, column `k 3`. -/
theorem weight_first (k : S4x128x128x768.Idx) (d : Fin 768) :
    idx_main_v0 (ridx_main_v2 (idx_main_v4 (idx_main_v6 k)) d) = ix2 (upper d) (k 3) :=
  funext fun a => match a with | ⟨0, _⟩ => rfl | ⟨1, _⟩ => rfl

/-- Where the second contraction reads the batch: row `(k 0, k 2)`. -/
theorem batch_second (k : S4x128x128x768.Idx) (d : Fin 768) :
    lidx_main_v3 (idx_main_v5 (idx_main_v7 k)) d = ix3 (k 0) (k 2) d :=
  funext fun a => match a with | ⟨0, _⟩ => rfl | ⟨1, _⟩ => rfl | ⟨2, _⟩ => rfl

/-- Where it reads the weight matrix: row `768 + d`, column `k 3`. -/
theorem weight_second (k : S4x128x128x768.Idx) (d : Fin 768) :
    idx_main_v1 (ridx_main_v3 (idx_main_v5 (idx_main_v7 k)) d) = ix2 (lower d) (k 3) :=
  funext fun a => match a with | ⟨0, _⟩ => rfl | ⟨1, _⟩ => rfl

/-- Where the bias is read: at `k 3`. -/
theorem bias_at (k : S4x128x128x768.Idx) : idx_main_v9 (idx_main_v10 k) = ix1 (k 3) :=
  funext fun a => match a with | ⟨0, _⟩ => rfl

/-- The reference's last stage is the pair projection of its four arguments. -/
theorem result_eq (x0 x1 : (⟨S4x128x768, .f32⟩ : BufTy).Contents (Elt Ideal)) (x2 : (⟨S1536x768, .f32⟩ : BufTy).Contents (Elt Ideal))
    (x3 : (⟨S768, .f32⟩ : BufTy).Contents (Elt Ideal)) :
    val_main_v11 (F := Ideal) x0 x1 x2 x3 = result x0 x1 x2 x3 := by
  funext k
  rw [val_main_v11_apply, val_main_v8_apply, val_main_v6_apply, val_main_v4_apply, val_main_v2_apply,
    val_main_v7_apply, val_main_v5_apply, val_main_v3_apply, val_main_v10_apply, val_main_v9_apply]
  simp only [val_main_v0_apply, val_main_v1_apply, batch_first, weight_first, batch_second, weight_second, bias_at]
  rfl

end Cert.ReferenceIdeal.RefValue

end
-- ==== Proof.KernelPayload.lean ====
/-
  What the kernel body stores, read at one element.

  At a grid point the body holds one batch's rows `a₁, a₂ : [1, 128, 768]`, the upper and lower halves
  `w₁, w₂ : [768, 256]` of a 256-column slice of the weight matrix, and that slice's bias `β : [256]`. It
  multiplies each batch by its half into a zero accumulator, lays the first product out as a column
  `[128, 1, 256]` and the second as a row `[1, 128, 256]`, broadcasts both to `[128, 128, 256]`, adds them,
  adds the broadcast bias, and stores the sum as a `[1, 128, 128, 256]` block. On the extended reals the
  change of float format before each product is the identity and a product into a zero accumulator is the
  plain sum over the contracted axis, so the element at `(0, i, j, o)` is

      (Σ_d a₁[0,i,d] · w₁[d,o]  +  Σ_d a₂[0,j,d] · w₂[d,o])  +  β[o].
-/
import proofs.«144224_j15951508537718_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## The matrix product at an element -/

/-- The left operand is read in the output's row … -/
theorem lhs_row (i : S128x256.Idx) (q : dot_S128x768_S768x256_S128x256_1_0_0_1_n_n.contr.Idx) :
    (dot_S128x768_S768x256_S128x256_1_0_0_1_n_n.lhsIdx i q 0).val = (i 0).val := by
  unfold DotDims.lhsIdx
  rw [dif_neg (show ¬(0 : Fin S128x768.rank) ∈ dot_S128x768_S768x256_S128x256_1_0_0_1_n_n.lhsBatch by decide), dif_pos (show (0 : Fin S128x768.rank) ∈ dot_S128x768_S768x256_S128x256_1_0_0_1_n_n.lhsNonContracting by decide)]
  rfl
/-- … at the contracted coordinate; -/
theorem lhs_contr (i : S128x256.Idx) (q : dot_S128x768_S768x256_S128x256_1_0_0_1_n_n.contr.Idx) :
    (dot_S128x768_S768x256_S128x256_1_0_0_1_n_n.lhsIdx i q 1).val = (q ⟨0, by decide⟩).val :=
  dot_S128x768_S768x256_S128x256_1_0_0_1_n_n.lhsIdx_val_of_single rfl i q
/-- the right operand at the contracted coordinate … -/
theorem rhs_contr (i : S128x256.Idx) (q : dot_S128x768_S768x256_S128x256_1_0_0_1_n_n.contr.Idx) :
    (dot_S128x768_S768x256_S128x256_1_0_0_1_n_n.rhsIdx i q 0).val = (q ⟨0, by decide⟩).val :=
  dot_S128x768_S768x256_S128x256_1_0_0_1_n_n.rhsIdx_val_of_single rfl i q
/-- … in the output's column. -/
theorem rhs_col (i : S128x256.Idx) (q : dot_S128x768_S768x256_S128x256_1_0_0_1_n_n.contr.Idx) :
    (dot_S128x768_S768x256_S128x256_1_0_0_1_n_n.rhsIdx i q 1).val = (i 1).val := by
  unfold DotDims.rhsIdx
  rw [dif_neg (show ¬(1 : Fin S768x256.rank) ∈ dot_S128x768_S768x256_S128x256_1_0_0_1_n_n.rhsBatch by decide), dif_pos (show (1 : Fin S768x256.rank) ∈ dot_S128x768_S768x256_S128x256_1_0_0_1_n_n.rhsNonContracting by decide)]
  rfl

/-- A `[128, 768] × [768, 256]` product into a zero accumulator, at `(i, o)`: `Σ_d x[i,d] · w[d,o]`. -/
theorem matmul_at {φ₁ φ₂ : FTy} (x : FVec Ideal S128x768 φ₁) (w : FVec Ideal S768x256 φ₂) (i : Fin 128) (o : Fin 256) :
    matmul (F := Ideal) dot_S128x768_S768x256_S128x256_1_0_0_1_n_n none x w (constant (F := Ideal) S128x256 .f32 0x00000000#32) (ix2 i o)
      = ∑ d : Fin 768, x (ix2 i d) * w (ix2 d o) := by
  simp only [matmul]
  rw [Ideal.matmul_constant_zero_apply, ← Equiv.sum_comp (contrEquiv1 dot_S128x768_S768x256_S128x256_1_0_0_1_n_n 768 rfl rfl).symm]
  refine Finset.sum_congr rfl fun d _ => ?_
  have hd := contrEquiv1_symm_val dot_S128x768_S768x256_S128x256_1_0_0_1_n_n 768 rfl rfl d
  have el : dot_S128x768_S768x256_S128x256_1_0_0_1_n_n.lhsIdx (ix2 i o) ((contrEquiv1 dot_S128x768_S768x256_S128x256_1_0_0_1_n_n 768 rfl rfl).symm d) = ix2 i d := funext fun a => Fin.ext (by
    match a with
    | ⟨0, _⟩ => exact lhs_row _ _
    | ⟨1, _⟩ => exact (lhs_contr _ _).trans hd)
  have er : dot_S128x768_S768x256_S128x256_1_0_0_1_n_n.rhsIdx (ix2 i o) ((contrEquiv1 dot_S128x768_S768x256_S128x256_1_0_0_1_n_n 768 rfl rfl).symm d) = ix2 d o := funext fun a => Fin.ext (by
    match a with
    | ⟨0, _⟩ => exact (rhs_contr _ _).trans hd
    | ⟨1, _⟩ => exact rhs_col _ _)
  rw [el, er]

/-! ## The layout operations at an element -/

section Layout
variable {α : Type}

/-- A `[128, 256]` array laid out as a column `[128, 1, 256]`. -/
theorem column_at (p : S128x256.Idx → α) (h : S128x256.ShapeCasts S128x1x256) (i : Fin 128) (u : Fin 1) (o : Fin 256) :
    shapeCast S128x1x256 p h (ix3 i u o) = p (ix2 i o) :=
  shapeCast_apply p h _ _ (by
    have hu : u.val = 0 := by omega
    rw [Shape.rowMajor_val_three, Shape.rowMajor_val_two]
    show i.val * 256 + o.val = (i.val * 1 + u.val) * 256 + o.val
    rw [hu]; omega)

/-- A `[256]` vector laid out as `[1, 1, 256]`. -/
theorem lanes_at (v : S256.Idx → α) (h : S256.ShapeCasts S1x1x256) (u u' : Fin 1) (o : Fin 256) :
    shapeCast S1x1x256 v h (ix3 u u' o) = v (ix1 o) :=
  shapeCast_apply v h _ _ (by
    have hu : u.val = 0 := by omega
    have hu' : u'.val = 0 := by omega
    rw [Shape.rowMajor_val_three, Shape.rowMajor_val_one]
    show o.val = (u.val * 1 + u'.val) * 256 + o.val
    rw [hu, hu']; omega)

/-- The column repeated along the new middle axis. -/
theorem spread_column_at (x : S128x1x256.Idx → α) (h : S128x1x256.Broadcasts S128x128x256) (i j : Fin 128) (o : Fin 256) :
    broadcastTo S128x128x256 x h (ix3 i j o) = x (ix3 i (0 : Fin 1) o) :=
  broadcastTo_apply x h _ _ (fun a => match a with
    | ⟨0, _⟩ => by show i.val = if (128 : Nat) = 1 then 0 else i.val; rw [if_neg (by decide)]
    | ⟨1, _⟩ => by show 0 = if (1 : Nat) = 1 then 0 else j.val; rw [if_pos rfl]
    | ⟨2, _⟩ => by show o.val = if (256 : Nat) = 1 then 0 else o.val; rw [if_neg (by decide)])

/-- The row repeated along the new leading axis. -/
theorem spread_row_at (x : S1x128x256.Idx → α) (h : S1x128x256.Broadcasts S128x128x256) (i j : Fin 128) (o : Fin 256) :
    broadcastTo S128x128x256 x h (ix3 i j o) = x (ix3 (0 : Fin 1) j o) :=
  broadcastTo_apply x h _ _ (fun a => match a with
    | ⟨0, _⟩ => by show 0 = if (1 : Nat) = 1 then 0 else i.val; rw [if_pos rfl]
    | ⟨1, _⟩ => by show j.val = if (128 : Nat) = 1 then 0 else j.val; rw [if_neg (by decide)]
    | ⟨2, _⟩ => by show o.val = if (256 : Nat) = 1 then 0 else o.val; rw [if_neg (by decide)])

/-- The lanes repeated along both leading axes. -/
theorem spread_lanes_at (x : S1x1x256.Idx → α) (h : S1x1x256.Broadcasts S128x128x256) (i j : Fin 128) (o : Fin 256) :
    broadcastTo S128x128x256 x h (ix3 i j o) = x (ix3 (0 : Fin 1) (0 : Fin 1) o) :=
  broadcastTo_apply x h _ _ (fun a => match a with
    | ⟨0, _⟩ => by show 0 = if (1 : Nat) = 1 then 0 else i.val; rw [if_pos rfl]
    | ⟨1, _⟩ => by show 0 = if (1 : Nat) = 1 then 0 else j.val; rw [if_pos rfl]
    | ⟨2, _⟩ => by show o.val = if (256 : Nat) = 1 then 0 else o.val; rw [if_neg (by decide)])

end Layout

/-! ## The stored block at an element -/

/-- The body's one store, at `(0, i, j, o)` of its `[1, 128, 128, 256]` block. -/
theorem stored_at (a₁ a₂ : Vec Ideal S1x128x768 .f32) (w₁ w₂ : Vec Ideal S768x256 .f32) (β : Vec Ideal S256 .f32)
    (i j : Fin 128) (o : Fin 256) :
    k0_pay1 (F := Ideal) a₁ a₂ w₁ w₂ β (ix4 (0 : Fin 1) i j o)
      = (∑ d : Fin 768, a₁ (ix3 (0 : Fin 1) i d) * w₁ (ix2 d o) + ∑ d : Fin 768, a₂ (ix3 (0 : Fin 1) j d) * w₂ (ix2 d o)) + β (ix1 o) := by
  unfold k0_pay1
  rw [shapeCast_abc_1abc_apply, addf_apply, addf_apply, spread_column_at, spread_row_at, spread_lanes_at,
    column_at, shapeCast_ab_1ab_apply, lanes_at, matmul_at, matmul_at]
  simp only [truncf_apply, shapeCast_1ab_ab_apply]

end Cert.KernelIdeal.Payload

end
-- ==== Proof.KernelArray.lean ====
/-
  The kernel's result array is the pair projection.

  The grid has 4 × 3 points `(b, q)`: batch `b` and the `q`-th slice of 256 output columns. At `(b, q)` the
  body sees batch `b` of each input (rows `[b, ·, ·]`), columns `256 q … 256 q + 255` of the whole weight
  matrix and of the bias, and writes block `[b, ·, ·, 256 q … 256 q + 255]` of the result. So the element the
  body stores at `(0, i, j, o)` of its block (`KernelPayload.stored_at`) is the pair projection of the argument
  arrays at `(b, i, j, 256 q + o)`; the twelve blocks tile `[4, 128, 128, 768]`; hence the array after the run
  is `PairProjection.result` of the arguments.
-/
import proofs.«144224_j15951508537718_1_alg».proof.Proof.Gen.KernelIdeal.Value
import proofs.«144224_j15951508537718_1_alg».proof.Proof.PairProjection
import proofs.«144224_j15951508537718_1_alg».proof.Proof.KernelPayload

noncomputable section

open scoped BigOperators

namespace Cert.KernelIdeal.Whole

open Cert.KernelIdeal Cert.KernelIdeal.Gen Cert.KernelIdeal.Value Idealize.ShloMosaic Idealize.ShloMosaic.TcCoe Idealize.SL.Sem
open Idealize.ShloMosaic.ValueIdx Cert.PairProjection
open Idealize.ShloMosaic.Pipeline (Dat)

variable (m : (ℓ : Loc nD τ sig) → Buf (Elt Ideal) ℓ) (ρ : Dev nD → PrngReg)

theorem zeros1 : (![0] : Fin 1 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-! ## The schedule -/

/-- Where each window's block sits at a grid point, relative to the output's: the two batches move with the output's
    batch index, the weight slice and the bias slice with its column-slice index, everything else stays at zero; and the
    output's two moving indices stay in their ranges. Decided over the twelve points. -/
theorem placement : ∀ t : Fin cfg0.N,
    win0_0.index t (0 : Fin 3) = win0_4.index t (0 : Fin 4) ∧ win0_0.index t (1 : Fin 3) = 0 ∧ win0_0.index t (2 : Fin 3) = 0
    ∧ win0_1.index t (0 : Fin 3) = win0_4.index t (0 : Fin 4) ∧ win0_1.index t (1 : Fin 3) = 0 ∧ win0_1.index t (2 : Fin 3) = 0
    ∧ win0_2.index t (0 : Fin 2) = 0 ∧ win0_2.index t (1 : Fin 2) = win0_4.index t (3 : Fin 4)
    ∧ win0_3.index t (0 : Fin 1) = win0_4.index t (3 : Fin 4)
    ∧ win0_4.index t (1 : Fin 4) = 0 ∧ win0_4.index t (2 : Fin 4) = 0
    ∧ win0_4.index t (0 : Fin 4) ≤ 3 ∧ win0_4.index t (3 : Fin 4) ≤ 2 :=
  (by decide +kernel : ∀ t : Fin grid0.N, _)

/-- Every (batch, column slice) pair is some point's output block. -/
theorem every_block : ∀ (b : Fin 4) (q : Fin 3), ∃ t : Fin cfg0.N, win0_4.index t = ![b.val, 0, 0, q.val] :=
  (by decide +kernel : ∀ (b : Fin 4) (q : Fin 3), ∃ t : Fin grid0.N, win0_4.index t = ![b.val, 0, 0, q.val])

/-! ## The blocks and the arrays, at their literal types -/

/-- The point's batch of the first input, -/
abbrev rows₁ (c : Dev nD) (t : Fin cfg0.N) : Vec Ideal S1x128x768 .f32 := iblk m c 0 t
/-- of the second, -/
abbrev rows₂ (c : Dev nD) (t : Fin cfg0.N) : Vec Ideal S1x128x768 .f32 := iblk m c 1 t
/-- its slice of the weight matrix's columns -/
abbrev wslice (c : Dev nD) (t : Fin cfg0.N) : Vec Ideal S1536x256 .f32 := iblk m c 2 t
/-- and of the bias. -/
abbrev bslice (c : Dev nD) (t : Fin cfg0.N) : Vec Ideal S256 .f32 := iblk m c 3 t

/-- The argument arrays as the region finds them. -/
abbrev X₁ (c : Dev nD) : S4x128x768.Idx → EReal := V m c main_arg0
abbrev X₂ (c : Dev nD) : S4x128x768.Idx → EReal := V m c main_arg1
abbrev Wt (c : Dev nD) : S1536x768.Idx → EReal := V m c main_arg2
abbrev Bs (c : Dev nD) : S768.Idx → EReal := V m c main_arg3

/-- Column `o` of slice `q` is column `256 q + o` of the whole. -/
abbrev col (q : Fin 3) (o : Fin 256) : Fin 768 := ⟨q.val * 256 + o.val, by have := q.isLt; have := o.isLt; omega⟩

/-! ## Each block's entries are the array's -/

theorem rows₁_at (c : Dev nD) (t : Fin cfg0.N) (b : Fin 4) (hb : win0_4.index t (0 : Fin 4) = b.val) (i : Fin 128) (d : Fin 768) :
    rows₁ m c t (ix3 (0 : Fin 1) i d) = X₁ m c (ix3 b i d) := by
  obtain ⟨e0, e1, e2, -⟩ := placement t
  unfold rows₁ iblk
  rw [View.read_apply]
  show V m c main_arg0 _ = V m c main_arg0 _
  congr 1
  funext a
  apply Fin.ext
  match a with
  | ⟨0, _⟩ => show win0_0.index t (0 : Fin 3) * 1 + 1 * 0 = b.val; omega
  | ⟨1, _⟩ => show win0_0.index t (1 : Fin 3) * 128 + 1 * i.val = i.val; omega
  | ⟨2, _⟩ => show win0_0.index t (2 : Fin 3) * 768 + 1 * d.val = d.val; omega

theorem rows₂_at (c : Dev nD) (t : Fin cfg0.N) (b : Fin 4) (hb : win0_4.index t (0 : Fin 4) = b.val) (j : Fin 128) (d : Fin 768) :
    rows₂ m c t (ix3 (0 : Fin 1) j d) = X₂ m c (ix3 b j d) := by
  obtain ⟨-, -, -, e0, e1, e2, -⟩ := placement t
  unfold rows₂ iblk
  rw [View.read_apply]
  show V m c main_arg1 _ = V m c main_arg1 _
  congr 1
  funext a
  apply Fin.ext
  match a with
  | ⟨0, _⟩ => show win0_1.index t (0 : Fin 3) * 1 + 1 * 0 = b.val; omega
  | ⟨1, _⟩ => show win0_1.index t (1 : Fin 3) * 128 + 1 * j.val = j.val; omega
  | ⟨2, _⟩ => show win0_1.index t (2 : Fin 3) * 768 + 1 * d.val = d.val; omega

theorem wslice_at (c : Dev nD) (t : Fin cfg0.N) (q : Fin 3) (hq : win0_4.index t (3 : Fin 4) = q.val) (r : Fin 1536) (o : Fin 256) :
    wslice m c t (ix2 r o) = Wt m c (ix2 r (col q o)) := by
  obtain ⟨-, -, -, -, -, -, e0, e1, -⟩ := placement t
  unfold wslice iblk
  rw [View.read_apply]
  show V m c main_arg2 _ = V m c main_arg2 _
  congr 1
  funext a
  apply Fin.ext
  match a with
  | ⟨0, _⟩ => show win0_2.index t (0 : Fin 2) * 1536 + 1 * r.val = r.val; omega
  | ⟨1, _⟩ => show win0_2.index t (1 : Fin 2) * 256 + 1 * o.val = q.val * 256 + o.val; omega

theorem bslice_at (c : Dev nD) (t : Fin cfg0.N) (q : Fin 3) (hq : win0_4.index t (3 : Fin 4) = q.val) (o : Fin 256) :
    bslice m c t (ix1 o) = Bs m c (ix1 (col q o)) := by
  obtain ⟨-, -, -, -, -, -, -, -, e0, -⟩ := placement t
  unfold bslice iblk
  rw [View.read_apply]
  show V m c main_arg3 _ = V m c main_arg3 _
  congr 1
  funext a
  apply Fin.ext
  match a with
  | ⟨0, _⟩ => show win0_3.index t (0 : Fin 1) * 256 + 1 * o.val = q.val * 256 + o.val; omega

/-- The body's first weight load is the upper half of the slice's rows, -/
theorem upper_half (w : Vec Ideal S1536x256 .f32) (d : Fin 768) (o : Fin 256) :
    (View.ld w r0_1 : Vec Ideal S768x256 .f32) (ix2 d o) = w (ix2 (upper d) o) :=
  congrArg w (funext fun a => Fin.ext (match a with
    | ⟨0, _⟩ => by show 0 + 1 * d.val = d.val; omega
    | ⟨1, _⟩ => by show 0 + 1 * o.val = o.val; omega))

/-- its second the lower half. -/
theorem lower_half (w : Vec Ideal S1536x256 .f32) (d : Fin 768) (o : Fin 256) :
    (View.ld w r0_2 : Vec Ideal S768x256 .f32) (ix2 d o) = w (ix2 (lower d) o) :=
  congrArg w (funext fun a => Fin.ext (match a with
    | ⟨0, _⟩ => by show 768 + 1 * d.val = 768 + d.val; omega
    | ⟨1, _⟩ => by show 0 + 1 * o.val = o.val; omega))

/-! ## What a point writes back -/

/-- The stored block, element by element, is the pair projection of the arrays under the point's output block. -/
theorem block_at (c : Dev nD) (t : Fin cfg0.N) (y : S1x128x128x256.Idx) :
    k0_pay1 (F := Ideal) (rows₁ m c t) (rows₂ m c t) (View.ld (wslice m c t) r0_1) (View.ld (wslice m c t) r0_2) (bslice m c t) y
      = result (X₁ m c) (X₂ m c) (Wt m c) (Bs m c) (((cfg0.win 4).blk t).view.emb y) := by
  obtain ⟨-, -, -, -, -, -, -, -, -, e1, e2, hb, hq⟩ := placement t
  obtain ⟨u, i, j, o, rfl⟩ : ∃ (u : Fin 1) (i j : Fin 128) (o : Fin 256), y = ix4 u i j o := ⟨y 0, y 1, y 2, y 3, eq_ix4 y⟩
  obtain rfl : u = 0 := Subsingleton.elim _ _
  have hemb : ((cfg0.win 4).blk t).view.emb (ix4 (0 : Fin 1) i j o)
      = ix4 (⟨win0_4.index t (0 : Fin 4), by omega⟩ : Fin 4) i j (col ⟨win0_4.index t (3 : Fin 4), by omega⟩ o) :=
    funext fun a => Fin.ext (match a with
      | ⟨0, _⟩ => by show win0_4.index t (0 : Fin 4) * 1 + 1 * 0 = win0_4.index t (0 : Fin 4); omega
      | ⟨1, _⟩ => by show win0_4.index t (1 : Fin 4) * 128 + 1 * i.val = i.val; omega
      | ⟨2, _⟩ => by show win0_4.index t (2 : Fin 4) * 128 + 1 * j.val = j.val; omega
      | ⟨3, _⟩ => by show win0_4.index t (3 : Fin 4) * 256 + 1 * o.val = win0_4.index t (3 : Fin 4) * 256 + o.val; omega)
  rw [hemb, result_ix4]
  refine (Payload.stored_at (rows₁ m c t) (rows₂ m c t) (View.ld (wslice m c t) r0_1) (View.ld (wslice m c t) r0_2) (bslice m c t) i j o).trans ?_
  unfold at4 proj
  refine congrArg₂ (· + ·) (congrArg₂ (· + ·) (Finset.sum_congr rfl fun d _ => ?_) (Finset.sum_congr rfl fun d _ => ?_)) ?_
  · rw [rows₁_at m c t ⟨win0_4.index t (0 : Fin 4), by omega⟩ rfl, upper_half, wslice_at m c t ⟨win0_4.index t (3 : Fin 4), by omega⟩ rfl]
  · rw [rows₂_at m c t ⟨win0_4.index t (0 : Fin 4), by omega⟩ rfl, lower_half, wslice_at m c t ⟨win0_4.index t (3 : Fin 4), by omega⟩ rfl]
  · exact bslice_at m c t ⟨win0_4.index t (3 : Fin 4), by omega⟩ rfl o

/-- What point `t` writes back is its block of the pair projection. -/
theorem flushed_eq (c : Dev nD) (t : Fin cfg0.N) :
    (dats m 0 c).flushed 4 t = ((cfg0.win 4).blk t).view.read (Elt Ideal) (result (X₁ m c) (X₂ m c) (Wt m c) (Bs m c)) := by
  rw [flushed4]
  unfold out0_4
  rw [View.canon_unit_zero zeros4]
  simp only [View.ld_unit_zero (S := S1x128x768) zeros3, View.ld_unit_zero (S := S256) zeros1]
  exact funext (block_at m c t)

/-! ## The blocks tile the array -/

theorem mem_block (t : Fin cfg0.N) (k : S4x128x128x768.Idx) :
    k ∈ ((cfg0.win 4).blk t).view.set ↔ ∀ a : Fin 4, win0_4.index t a * S1x128x128x256.size a ≤ (k a).val ∧ (k a).val < win0_4.index t a * S1x128x128x256.size a + S1x128x128x256.size a := by
  show k ∈ ((View.whole main_v0).slice (win0_4.rect t)).set ↔ _
  rw [View.set_slice_whole, Rect.mem_set_unit]
  exact Iff.rfl

/-- Index `(b, i, j, n)` lies in the block of the point `(b, n / 256)`. -/
theorem covered (k : S4x128x128x768.Idx) : ∃ t : Fin cfg0.N, (cfg0.win 4).flush t = true ∧ k ∈ ((cfg0.win 4).blk t).view.set := by
  have h0 : (k 0).val < 4 := (k 0).isLt
  have h1 : (k 1).val < 128 := (k 1).isLt
  have h2 : (k 2).val < 128 := (k 2).isLt
  have h3 : (k 3).val < 768 := (k 3).isLt
  obtain ⟨t, ht⟩ := every_block ⟨(k 0).val, h0⟩ ⟨(k 3).val / 256, by omega⟩
  have q0 : win0_4.index t (0 : Fin 4) = (k 0).val := congrFun ht 0
  have q1 : win0_4.index t (1 : Fin 4) = 0 := congrFun ht 1
  have q2 : win0_4.index t (2 : Fin 4) = 0 := congrFun ht 2
  have q3 : win0_4.index t (3 : Fin 4) = (k 3).val / 256 := congrFun ht 3
  refine ⟨t, flush0_4 t, ?_⟩
  rw [mem_block]
  intro a
  match a with
  | ⟨0, _⟩ => show win0_4.index t (0 : Fin 4) * 1 ≤ (k 0).val ∧ (k 0).val < win0_4.index t (0 : Fin 4) * 1 + 1; omega
  | ⟨1, _⟩ => show win0_4.index t (1 : Fin 4) * 128 ≤ (k 1).val ∧ (k 1).val < win0_4.index t (1 : Fin 4) * 128 + 128; omega
  | ⟨2, _⟩ => show win0_4.index t (2 : Fin 4) * 128 ≤ (k 2).val ∧ (k 2).val < win0_4.index t (2 : Fin 4) * 128 + 128; omega
  | ⟨3, _⟩ => show win0_4.index t (3 : Fin 4) * 256 ≤ (k 3).val ∧ (k 3).val < win0_4.index t (3 : Fin 4) * 256 + 256; omega

/-! ## The array after the run, and the run -/

/-- The result array after the run is the pair projection of the argument arrays as launched. -/
theorem final (c : Dev nD) :
    (dats m 0 c).arrAt 4 cfg0.N
      = result (m ((c : Thread nD τ).loc main_arg0)) (m ((c : Thread nD τ).loc main_arg1)) (m ((c : Thread nD τ).loc main_arg2)) (m ((c : Thread nD τ).loc main_arg3)) :=
  (dats m 0 c).arrAt_eq_of_cover 4 (result (X₁ m c) (X₂ m c) (Wt m c) (Bs m c)) (fun t _ => flushed_eq m c t) covered

/-- Every weakly fair execution ends with the result array at the pair projection of the arguments and the arguments unchanged. -/
theorem run : θ_run defs (onTc (τ := τ) (main (F := Ideal))) ⟨m, fun _ => 0, ρ⟩ fun r => ∀ c : Dev nD,
      r.2.mem ((c : Thread nD τ).loc main_v0)
        = result (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Whole

end
-- ==== Proof.lean ====
/-
  A pairwise concatenate-and-project layer, computed without the concatenation.

  For batches `x₁, x₂ : [4, 128, 768]`, a weight matrix `W : [1536, 768]` and a bias `β : [768]`, the layer's
  output at `(b, i, j, o)` is the row `[x₁[b,i,·], x₂[b,j,·]]` of length 1536 times column `o` of `W`, plus
  `β[o]`. Splitting the contraction at 768 gives

      (Σ_d x₁[b,i,d] · W[d,o]  +  Σ_d x₂[b,j,d] · W[768+d,o])  +  β[o]          (`PairProjection.result`),

  and BOTH programs already compute it in this split form and with this grouping of the two additions:

  * the reference slices `W` into halves, contracts each batch with its half, broadcasts the products against
    each other, adds them and adds the broadcast bias (`ReferenceValue.result_eq`, over the generated
    stage-by-stage reading of its run);
  * the kernel, at grid point (batch `b`, column slice `q`), forms the same two products for the 256 columns
    of slice `q` into zero accumulators — on the extended reals the narrowing of the operands before each
    product is the identity and a product into zero is the plain sum —, lays them out as a column and a row,
    adds them, adds the bias slice, and writes block `[b, ·, ·, 256 q …]` (`KernelPayload.stored_at`,
    `KernelArray.block_at`); the twelve blocks tile the result (`KernelArray.covered`), so the array after the
    run is the same function of the arguments (`KernelArray.run`).

  The summands agree one by one, so no law of the extended reals is used and the precondition is never opened.
  The idealization rewrote no operation, so the kernel's idealized program is its own text read on the
  extended reals and that conjunct is `True`. The two kernels' frames are the generated frame runs; the
  reference's frame is its generated run with the result dropped.
-/
import proofs.«144224_j15951508537718_1_alg».proof.Defs
import proofs.«144224_j15951508537718_1_alg».proof.Proof.Gen.Kernel
import proofs.«144224_j15951508537718_1_alg».proof.Proof.Gen.Kernel.Skeleton
import proofs.«144224_j15951508537718_1_alg».proof.Proof.Gen.Kernel.Launch
import proofs.«144224_j15951508537718_1_alg».proof.Proof.Gen.Kernel.Points
import proofs.«144224_j15951508537718_1_alg».proof.Proof.Gen.Kernel.Frame
import proofs.«144224_j15951508537718_1_alg».proof.Proof.Gen.KernelIdeal
import proofs.«144224_j15951508537718_1_alg».proof.Proof.Gen.KernelIdeal.Skeleton
import proofs.«144224_j15951508537718_1_alg».proof.Proof.Gen.KernelIdeal.Launch
import proofs.«144224_j15951508537718_1_alg».proof.Proof.Gen.KernelIdeal.Points
import proofs.«144224_j15951508537718_1_alg».proof.Proof.Gen.KernelIdeal.Frame
import proofs.«144224_j15951508537718_1_alg».proof.Proof.Gen.ReferenceIdeal
import proofs.«144224_j15951508537718_1_alg».proof.Proof.Gen.Pre_finite_inputs
import proofs.«144224_j15951508537718_1_alg».proof.Proof.Gen.KernelIdeal.Value
import proofs.«144224_j15951508537718_1_alg».proof.Proof.Gen.ReferenceIdeal.Run
import proofs.«144224_j15951508537718_1_alg».proof.Proof.Gen.ReferenceIdeal.Read
import proofs.«144224_j15951508537718_1_alg».proof.Proof.PairProjection
import proofs.«144224_j15951508537718_1_alg».proof.Proof.ReferenceValue
import proofs.«144224_j15951508537718_1_alg».proof.Proof.KernelPayload
import proofs.«144224_j15951508537718_1_alg».proof.Proof.KernelArray
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference's frame: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the four arguments both programs end with the result array at the pair projection
    of those arguments: the kernel by its twelve blocks, the reference by its last stage. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
